-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128 .f32) (main_arg7 : FVec F S128x10 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x10 .f32) (main_arg8 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 120
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000, .f32⟩
  | .hbm, ⟨43, _⟩ => ⟨S800000, .f32⟩
  | .hbm, ⟨44, _⟩ => ⟨S800000x1, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000, .f32⟩
  | .hbm, ⟨81, _⟩ => ⟨S800000, .f32⟩
  | .hbm, ⟨82, _⟩ => ⟨S800000x1, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S800000x128, .f32⟩
  | .hbm, ⟨93, _⟩ => ⟨S800000x128, .f32⟩
  | .hbm, ⟨94, _⟩ => ⟨S_, .f32⟩
  | .hbm, ⟨95, _⟩ => ⟨S50000x128, .f32⟩
  | .hbm, ⟨96, _⟩ => ⟨S800000x1, .i32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S_, .f32⟩
  | .hbm, ⟨101, _⟩ => ⟨S64x128, .f32⟩
  | .hbm, ⟨102, _⟩ => ⟨S50000x1, .i32⟩
  | .hbm, ⟨103, _⟩ => ⟨S64x128, .f32⟩
  | .hbm, ⟨104, _⟩ => ⟨S_, .f32⟩
  | .hbm, ⟨105, _⟩ => ⟨S50000, .f32⟩
  | .hbm, ⟨106, _⟩ => ⟨S_, .f32⟩
  | .hbm, ⟨107, _⟩ => ⟨S64, .f32⟩
  | .hbm, ⟨108, _⟩ => ⟨S50000x1, .i32⟩
  | .hbm, ⟨109, _⟩ => ⟨S64, .f32⟩
  | .hbm, ⟨110, _⟩ => ⟨S_, .f32⟩
  | .hbm, ⟨111, _⟩ => ⟨S64, .f32⟩
  | .hbm, ⟨112, _⟩ => ⟨S64, .f32⟩
  | .hbm, ⟨113, _⟩ => ⟨S64x1, .f32⟩
  | .hbm, ⟨114, _⟩ => ⟨S64x128, .f32⟩
  | .hbm, ⟨115, _⟩ => ⟨S64x128, .f32⟩
  | .hbm, ⟨116, _⟩ => ⟨S64x10, .f32⟩
  | .hbm, ⟨117, _⟩ => ⟨S1x10, .f32⟩
  | .hbm, ⟨118, _⟩ => ⟨S64x10, .f32⟩
  | .hbm, ⟨119, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_16 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x10, .f32⟩
  | 8 => ⟨S10, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S800000x1, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S800000x128, .f32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S800000, .f32⟩
  | 90 => ⟨S800000x1, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S800000x128, .f32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S50000, .f32⟩
  | 107 => ⟨S50000x1, .f32⟩
  | 108 => ⟨S50000x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S_, .f32⟩
  | 118 => ⟨S64x128, .f32⟩
  | 119 => ⟨S50000x1, .i32⟩
  | 120 => ⟨S64x128, .f32⟩
  | 121 => ⟨S_, .f32⟩
  | 122 => ⟨S50000, .f32⟩
  | 123 => ⟨S_, .f32⟩
  | 124 => ⟨S64, .f32⟩
  | 125 => ⟨S50000x1, .i32⟩
  | 126 => ⟨S64, .f32⟩
  | 127 => ⟨S_, .f32⟩
  | _ => ⟨S50000x128, .f32⟩

abbrev hbmTy0_1 (i : Nat) : BufTy := match i % 128 with
  | 0 => ⟨S64, .f32⟩
  | 1 => ⟨S64, .f32⟩
  | 2 => ⟨S64x1, .f32⟩
  | 3 => ⟨S64x128, .f32⟩
  | 4 => ⟨S64x128, .f32⟩
  | 5 => ⟨S64x10, .f32⟩
  | 6 => ⟨S1x10, .f32⟩
  | 7 => ⟨S64x10, .f32⟩
  | 8 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call1_cst : Ref sig .tc := ⟨.hbm, 114, rfl⟩
abbrev main_call1_v0 : Ref sig .tc := ⟨.hbm, 115, rfl⟩
abbrev main_v86 : Ref sig .tc := ⟨.hbm, 116, rfl⟩
abbrev main_cst_15 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.Host0.lean ====
/-
  The first stretch of host operations, read buffer by buffer: the two rows of the edge list, the inverse root degrees
  and their column form are the same functions of the edge list that the reference's stages compute; the arguments are
  untouched.
-/
import proofs.«146762_j77584289235224_1_alg».proof.Proof.Gen.KernelIdeal.Frame
import proofs.«146762_j77584289235224_1_alg».proof.Proof.Gen.ReferenceIdeal.Read
import Idealize.ShloMosaic.Lib.StableHlo.Run

set_option maxRecDepth 16384

noncomputable section

namespace Cert.Gcn.Host

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- The edge sources. -/
theorem W1_v1 (c : Dev nD) : W1 m ρ c (Proc.devRef .tc main_v1)
    = Cert.ReferenceIdeal.Read.val_main_v1 (F := Ideal) (m ((c : Thread nD τ).loc main_arg1)) := by
  show StableHlo.after hostOps0 (W0 m ρ c) (Proc.devRef .tc main_v1) = _
  after_results
  rfl

/-- The edge targets. -/
theorem W1_v3 (c : Dev nD) : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results
  rfl

/-- The inverse root degrees: one over the root of one plus the number of edges into a node. -/
theorem W1_v10 (c : Dev nD) : W1 m ρ c (Proc.devRef .tc main_v10)
    = Cert.ReferenceIdeal.Read.val_main_v10 (F := Ideal) (m ((c : Thread nD τ).loc main_arg1)) := by
  show StableHlo.after hostOps0 (W0 m ρ c) (Proc.devRef .tc main_v10) = _
  after_results
  rfl

/-- The same numbers laid out as a column. -/
theorem W1_v11 (c : Dev nD) : W1 m ρ c (Proc.devRef .tc main_v11)
    = shapeCast S50000x1 (Cert.ReferenceIdeal.Read.val_main_v10 (F := Ideal) (m ((c : Thread nD τ).loc main_arg1))) shapeCasts_S50000_S50000x1 := by
  show StableHlo.after hostOps0 (W0 m ρ c) (Proc.devRef .tc main_v11) = _
  after_results
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_arg3 (c : Dev nD) : W1 m ρ c (Proc.devRef .tc main_arg3) = m ((c : Thread nD τ).loc main_arg3) := by
  show StableHlo.after hostOps0 (W0 m ρ c) (Proc.devRef .tc main_arg3) = _
  after_results

theorem W1_arg4 (c : Dev nD) : W1 m ρ c (Proc.devRef .tc main_arg4) = m ((c : Thread nD τ).loc main_arg4) := by
  show StableHlo.after hostOps0 (W0 m ρ c) (Proc.devRef .tc main_arg4) = _
  after_results

theorem W1_arg5 (c : Dev nD) : W1 m ρ c (Proc.devRef .tc main_arg5) = m ((c : Thread nD τ).loc main_arg5) := by
  show StableHlo.after hostOps0 (W0 m ρ c) (Proc.devRef .tc main_arg5) = _
  after_results

theorem W1_arg6 (c : Dev nD) : W1 m ρ c (Proc.devRef .tc main_arg6) = m ((c : Thread nD τ).loc main_arg6) := by
  show StableHlo.after hostOps0 (W0 m ρ c) (Proc.devRef .tc main_arg6) = _
  after_results

theorem W1_arg7 (c : Dev nD) : W1 m ρ c (Proc.devRef .tc main_arg7) = m ((c : Thread nD τ).loc main_arg7) := by
  show StableHlo.after hostOps0 (W0 m ρ c) (Proc.devRef .tc main_arg7) = _
  after_results

theorem W1_arg8 (c : Dev nD) : W1 m ρ c (Proc.devRef .tc main_arg8) = m ((c : Thread nD τ).loc main_arg8) := by
  show StableHlo.after hostOps0 (W0 m ρ c) (Proc.devRef .tc main_arg8) = _
  after_results

end Cert.Gcn.Host

end
-- ==== Proof.Spec.lean ====
/-
  What one graph-convolution layer computes, index by index, over the extended reals.

  A layer multiplies the node features by a weight matrix, sums the neighbours' normalised rows into each node
  (host operations shared by both programs), and then, per node p and channel h, adds the node's own row scaled by
  the square of its inverse root degree and the bias, and clamps at zero:
      out (p, h) = max ((agg (p, h) + (d p · d p) · hw (p, h)) + b h) 0.
  The two functions below are the matrix product and that last step, stated once so that the program that computes
  them in blocks of 5000 nodes and the program that computes them on whole arrays meet at the same function.
-/
import Idealize.ShloMosaic.PureOps.Ideal
import Idealize.ShloMosaic.Lib.ValueIdx

noncomputable section

namespace Cert.Gcn

open Idealize.ShloMosaic Idealize.ShloMosaic.ValueIdx

/-- Node features: 50000 nodes by 128 channels. -/
abbrev Nodes : Shape := ⟨2, ![50000, 128]⟩
/-- A layer's weights: 128 by 128. -/
abbrev Weights : Shape := ⟨2, ![128, 128]⟩
/-- One number per node, kept as a column. -/
abbrev Col : Shape := ⟨2, ![50000, 1]⟩
/-- One number per channel, kept as a row. -/
abbrev Row : Shape := ⟨2, ![1, 128]⟩

/-- The matrix product: (X W) (p, h) = Σₖ X (p, k) · W (k, h). -/
def mm (X : Nodes.Idx → EReal) (W : Weights.Idx → EReal) : Nodes.Idx → EReal :=
  fun i => ∑ k : Fin 128, X (ix2 (n0 := 50000) (n1 := 128) (i 0) k) * W (ix2 (n0 := 128) (n1 := 128) k (i 1))

theorem mm_apply (X : Nodes.Idx → EReal) (W : Weights.Idx → EReal) (p : Fin 50000) (h : Fin 128) :
    mm X W (ix2 p h) = ∑ k : Fin 128, X (ix2 p k) * W (ix2 k h) := rfl

/-- The layer's last step: the aggregated neighbours, plus the node's own row scaled by d², plus the bias, clamped at
    zero. The per-node factor d is a column and the bias a row. -/
def combine (agg hw : Nodes.Idx → EReal) (d : Col.Idx → EReal) (b : Row.Idx → EReal) : Nodes.Idx → EReal :=
  fun i => max ((agg i + (d (ix2 (n0 := 50000) (n1 := 1) (i 0) 0) * d (ix2 (n0 := 50000) (n1 := 1) (i 0) 0)) * hw i)
    + b (ix2 (n0 := 1) (n1 := 128) 0 (i 1))) 0

theorem combine_apply (agg hw : Nodes.Idx → EReal) (d : Col.Idx → EReal) (b : Row.Idx → EReal) (p : Fin 50000) (h : Fin 128) :
    combine agg hw d b (ix2 p h)
      = max ((agg (ix2 p h) + (d (ix2 p 0) * d (ix2 p 0)) * hw (ix2 p h)) + b (ix2 0 h)) 0 := rfl

end Cert.Gcn

end
-- ==== Proof.LibMatmul2.lean ====
/-
  A rank-2 by rank-2 `tpu.matmul` into the zero accumulator, read at an index at the ideal values.

  For a dimension record that contracts the left operand's second axis against the right operand's first, with no batch
  axis, the product of an [M, K] and a [K, N] matrix read at (p, h) is the plain sum  Σₖ a (p, k) · b (k, h)  over the
  extended reals. The record's four coordinate facts (which operand coordinate is the output's row, the output's column,
  the contraction index) are hypotheses: each is decided on a literal record by whoever instantiates the lemma.
-/
import Idealize.ShloMosaic.PureOps.Ideal.Laws
import Idealize.ShloMosaic.Lib.ValueIdx

noncomputable section

namespace Cert.LibMatmul2

open Idealize.ShloMosaic Idealize.ShloMosaic.ValueIdx

/-- The matrix product into a zero accumulator at (p, h) is Σₖ a (p, k) · b (k, h). -/
theorem matmul_zero_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    matmul D none a b (constant ⟨2, ![M, N]⟩ .f32 0x00000000#32) (ix2 p h) = ∑ k : Fin K, a (ix2 p k) * b (ix2 k h) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibMatmul2

end
-- ==== Proof.LibDotAxes.lean ====
/-
  The four coordinate facts of a rank-2 by rank-2 dimension record that contracts the left operand's columns with the
  right operand's rows and has no batch axis, from the record's six axis lists.

  For such a record the left operand is read at (output row, contraction index) and the right operand at
  (contraction index, output column); the contraction shape has one axis, of the shared extent. A literal record
  gives the six list equations by computation, and these lemmas turn them into the hypotheses a matrix product read
  at an index asks for.
-/
import Idealize.ShloMosaic.PureOps.Dims

namespace Cert.LibDotAxes

open Idealize.ShloMosaic

variable {M K N : Nat} (D : DotDims ⟨2, ![M, K]⟩ ⟨2, ![K, N]⟩ ⟨2, ![M, N]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) (h : 0 < D.contr.rank) : D.contr.size ⟨0, h⟩ = K := by
  have h0 : 0 < D.lhsContracting.length := by rw [hlc]; exact Nat.one_pos
  rw [D.size_contr 0 h0]
  have e : D.lhsContracting[0]'h0 = (1 : Fin 2) := by simp [hlc]
  rw [e]; rfl

private theorem val_congr {n : Nat} {sz : Fin n → Nat} (i : (a : Fin n) → Fin (sz a)) :
    ∀ (p q : Nat) (hp : p < n) (hq : q < n), p = q → (i ⟨p, hp⟩).val = (i ⟨q, hq⟩).val :=
  fun p q hp hq h => by subst h; rfl

/-- The left operand's row coordinate is the output's row. -/
theorem lhs_row (hlb : D.lhsBatch = []) (hln : D.lhsNonContracting = [0])
    (i : (⟨2, ![M, N]⟩ : Shape).Idx) (q : D.contr.Idx) : (D.lhsIdx i q 0).val = (i 0).val := by
  have h1 : (0 : Fin 2) ∉ D.lhsBatch := by rw [hlb]; exact List.not_mem_nil
  have h2 : (0 : Fin 2) ∈ D.lhsNonContracting := by rw [hln]; exact List.mem_singleton.mpr rfl
  unfold DotDims.lhsIdx
  rw [dif_neg h1, dif_pos h2]
  simp only [Fin.val_cast]
  exact val_congr i _ _ _ _ (by simp [hlb, hln])

/-- The left operand's column coordinate is the contraction index. -/
theorem lhs_col (hlc : D.lhsContracting = [1]) (i : (⟨2, ![M, N]⟩ : Shape).Idx) (q : D.contr.Idx)
    (h : 0 < D.contr.rank) : (D.lhsIdx i q 1).val = (q ⟨0, h⟩).val :=
  D.lhsIdx_val_of_single hlc i q

/-- The right operand's row coordinate is the contraction index. -/
theorem rhs_row (hrc : D.rhsContracting = [0]) (i : (⟨2, ![M, N]⟩ : Shape).Idx) (q : D.contr.Idx)
    (h : 0 < D.contr.rank) : (D.rhsIdx i q 0).val = (q ⟨0, h⟩).val :=
  D.rhsIdx_val_of_single hrc i q

/-- The right operand's column coordinate is the output's column. -/
theorem rhs_col (hlb : D.lhsBatch = []) (hln : D.lhsNonContracting = [0]) (hrb : D.rhsBatch = [])
    (hrn : D.rhsNonContracting = [1]) (i : (⟨2, ![M, N]⟩ : Shape).Idx) (q : D.contr.Idx) :
    (D.rhsIdx i q 1).val = (i 1).val := by
  have h1 : (1 : Fin 2) ∉ D.rhsBatch := by rw [hrb]; exact List.not_mem_nil
  have h2 : (1 : Fin 2) ∈ D.rhsNonContracting := by rw [hrn]; exact List.mem_singleton.mpr rfl
  unfold DotDims.rhsIdx
  rw [dif_neg h1, dif_pos h2]
  simp only [Fin.val_cast]
  exact val_congr i _ _ _ _ (by simp [hlb, hln, hrn])

end Cert.LibDotAxes
-- ==== Proof.Region0.lean ====
/-
  The first product region, block by block.

  The region computes X · W for node features X : [50000, 128] and weights W : [128, 128] in ten blocks of 5000 rows.
  At block t it reads rows 5000 t … 5000 t + 4999 of X and all of W, narrows both to bf16 (the identity over the
  extended reals), multiplies them into a zero accumulator, and writes the [5000, 128] result to rows
  5000 t … 5000 t + 4999 of the output. Entry (p, h) of that block is Σₖ X (5000 t + p, k) · W (k, h), which is entry
  (5000 t + p, h) of the matrix product; row r of the output lies in block r / 5000, so the ten blocks fill the array
  and after the ten write-backs the array is the matrix product.
-/
import proofs.«146762_j77584289235224_1_alg».proof.Proof.Gen.KernelIdeal.Frame
import proofs.«146762_j77584289235224_1_alg».proof.Proof.Spec
import proofs.«146762_j77584289235224_1_alg».proof.Proof.LibMatmul2
import proofs.«146762_j77584289235224_1_alg».proof.Proof.LibDotAxes
import Idealize.ShloMosaic.Lib.Pipeline.Value

set_option maxRecDepth 16384

noncomputable section

namespace Cert.Gcn.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## One block's product at an index -/

/-- The offsets (0, 0) of the rectangle through which the body reads and writes its whole buffers. -/
theorem zero_offsets : (![0, 0] : Fin 2 → Nat) = fun _ => 0 := funext fun a => by fin_cases a <;> rfl

/-- The body's result at (p, h): a block of 5000 rows times the weights, into a zero accumulator, is
    Σₖ x0 (p, k) · x1 (k, h); narrowing to bf16 changes nothing over the extended reals. -/
theorem block_product_apply (x0 : Vec Ideal S5000x128 .f32) (x1 : Vec Ideal S128x128 .f32) (p : Fin 5000) (h : Fin 128) :
    k0_pay1 (F := Ideal) x0 x1 (ix2 p h) = ∑ k : Fin 128, x0 (ix2 p k) * x1 (ix2 k h) := by
  unfold k0_pay1
  have hr := Cert.LibDotAxes.contr_rank (M := 5000) (K := 128) (N := 128) dot_S5000x128_S128x128_S5000x128_1_0_0_1_n_n rfl
  exact Cert.LibMatmul2.matmul_zero_apply (M := 5000) (K := 128) (N := 128)
    dot_S5000x128_S128x128_S5000x128_1_0_0_1_n_n hr
    (Cert.LibDotAxes.contr_size _ rfl _)
    (Cert.LibDotAxes.lhs_row _ rfl rfl)
    (fun i q => Cert.LibDotAxes.lhs_col _ rfl i q _)
    (fun i q => Cert.LibDotAxes.rhs_row _ rfl i q _)
    (Cert.LibDotAxes.rhs_col _ rfl rfl rfl rfl)
    (truncf .bf16 x0 bitsLt_bf16_f32) (truncf .bf16 x1 bitsLt_bf16_f32) p h

/-! ## Where the blocks sit -/

/-- The block indices over the ten grid points: the feature window and the output window are at block (t, 0), the
    weight window always at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- There are ten grid points. -/
theorem point_lt (t : Fin cfg0.N) : t.val < 10 := lt_of_lt_of_eq t.isLt N_0

/-- Row p of block t is row 5000 t + p of the array. -/
theorem row_lt (t : Fin cfg0.N) (p : Fin 5000) : t.val * 5000 + p.val < 50000 := by
  have := point_lt t; have := p.isLt; omega

/-- The feature block at point t, at (p, k), is X (5000 t + p, k). -/
theorem features_block_apply (c : Dev nD) (t : Fin cfg0.N) (p : Fin 5000) (k : Fin 128) :
    iblk0 V c 0 t (ix2 p k) = V c main_arg0 (ix2 (n0 := 50000) (n1 := 128) ⟨t.val * 5000 + p.val, row_lt t p⟩ k) := by
  show V c main_arg0 (((cfg0.win 0).blk t).view.emb (ix2 p k)) = _
  refine congrArg (V c main_arg0) ?_
  obtain ⟨e0, e1, -⟩ := block_indices t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight block at every point, at (k, h), is W (k, h). -/
theorem weights_block_apply (c : Dev nD) (t : Fin cfg0.N) (k : Fin 128) (h : Fin 128) :
    iblk0 V c 1 t (ix2 k h) = V c main_arg3 (ix2 (n0 := 128) (n1 := 128) k h) := by
  show V c main_arg3 (((cfg0.win 1).blk t).view.emb (ix2 k h)) = _
  refine congrArg (V c main_arg3) ?_
  obtain ⟨-, -, e2, e3, -⟩ := block_indices t
  funext a; apply Fin.ext
  match a with
  | ⟨0, _⟩ => show win0_1.index t (0 : Fin 2) * 128 + 1 * k.val = k.val; omega
  | ⟨1, _⟩ => show win0_1.index t (1 : Fin 2) * 128 + 1 * h.val = h.val; omega

/-- Entry (p, h) of the output block at point t is entry (5000 t + p, h) of the array. -/
theorem output_block_emb (t : Fin cfg0.N) (p : Fin 5000) (h : Fin 128) :
    ((cfg0.win 2).blk t).view.emb (ix2 p h) = ix2 (n0 := 50000) (n1 := 128) ⟨t.val * 5000 + p.val, row_lt t p⟩ h := by
  obtain ⟨-, -, -, -, e4, e5⟩ := block_indices t
  funext a; apply Fin.ext
  match a with
  | ⟨0, _⟩ => show win0_2.index t (0 : Fin 2) * 5000 + 1 * p.val = t.val * 5000 + p.val; omega
  | ⟨1, _⟩ => show win0_2.index t (1 : Fin 2) * 128 + 1 * h.val = h.val; omega

/-! ## What each point writes back -/

/-- What point t writes back is block t of the matrix product of the two arrays the region was entered with. -/
theorem flushed_eq (c : Dev nD) (t : Fin cfg0.N) :
    (dat0 (F := Ideal) V c).flushed 2 t
      = ((cfg0.win 2).blk t).view.read (Elt Ideal) (Cert.Gcn.mm (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  funext j
  obtain ⟨p, h, rfl⟩ : ∃ (p : Fin 5000) (h : Fin 128), j = ix2 p h := ⟨j 0, j 1, eq_ix2 j⟩
  show k0_pay1 (iblk0 V c 0 t) (iblk0 V c 1 t) (ix2 p h)
    = Cert.Gcn.mm (V c main_arg0) (V c main_arg3) (((cfg0.win 2).blk t).view.emb (ix2 p h))
  rw [block_product_apply, output_block_emb, Cert.Gcn.mm_apply]
  refine Finset.sum_congr rfl fun k _ => ?_
  rw [features_block_apply, weights_block_apply]

/-! ## The blocks fill the array -/

/-- An index of the array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v12).slice (win0_2.rect t)).set ↔ _
  rw [View.set_slice_whole, Rect.mem_set_unit]
  exact Iff.rfl

/-- Row r lies in block r / 5000, and that point writes its block back. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, e4, e5⟩ := block_indices t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-! ## The array -/

/-- After the ten blocks of 5000 nodes have been written back, the output array is the matrix product of the two arrays the region was entered with. -/
theorem array (c : Dev nD) :
    (dat0 (F := Ideal) V c).arrAt 2 cfg0.N = Cert.Gcn.mm (V c main_arg0) (V c main_arg3) := by
  exact (dat0 (F := Ideal) V c).arrAt_eq_of_cover 2 (Cert.Gcn.mm (V c main_arg0) (V c main_arg3))
    (fun t _ => flushed_eq V c t) covered

end Cert.Gcn.Region0

end
-- ==== Proof.LibKeepdims.lean ====
/-
  Keepdims layouts read at an index, for values of any element type.

  A reduction written with `keepdims=True` leaves a unit axis behind and is then broadcast back over the
  reduced axis. Two of the layout steps this produces are read here at an index given by coordinates:

  * a vector `[a]` recast as a column `[a, 1]` holds, at `(i, u)`, the vector's entry `i` (the unit
    coordinate `u` can only be `0`, and the row-major positions `i` and `i * 1 + u` agree);
  * a column `[a, 1]` broadcast to `[a, b]` holds, at `(p, c)`, the column's entry `(p, 0)`: the unit axis
    is read at `0`, the other axis at the same coordinate (when `a = 1` that coordinate is `0` anyway).

  Together with the row forms (`[a] → [1, a]` and `[1, b] → [a, b]`) of the layout library these cover both
  operands of `rowsum[:, None] + colsum[None, :]`.
-/
import Idealize.ShloMosaic.Lib.ValueLayout

namespace KeepdimsLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsLayout
-- ==== Proof.Region1.lean ====
import proofs.«146762_j77584289235224_1_alg».proof.Proof.Gen.KernelIdeal.Frame
import proofs.«146762_j77584289235224_1_alg».proof.Proof.Spec
import proofs.«146762_j77584289235224_1_alg».proof.Proof.LibKeepdims
import Idealize.ShloMosaic.Lib.ValueLayout
import Idealize.ShloMosaic.PureOps.Ideal.Laws

set_option maxRecDepth 16384

noncomputable section

namespace Cert.Gcn.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The block the body stores, at row p and channel h: the aggregate entry, plus the squared column entry of row p
    times the feature entry, plus the bias at channel h, clamped at zero. The shape casts are identities, the column
    is read at (p, 0) and the bias row at (0, h). -/
theorem pay_apply (v0 : Vec Ideal S5000x1 .f32) (v3 v7 : Vec Ideal S5000x128 .f32) (v10 : Vec Ideal S1x128 .f32)
    (p : Fin 5000) (h : Fin 128) :
    k1_pay1 (F := Ideal) v0 v3 v7 v10 (ix2 p h)
      = max ((v7 (ix2 p h) + (v0 (ix2 p 0) * v0 (ix2 p 0)) * v3 (ix2 p h)) + v10 (ix2 0 h)) 0 := by
  unfold k1_pay1
  simp only [shapeCast_self]
  rw [maximumf_apply, broadcast_apply, addf_apply, addf_apply, mulf_apply,
    broadcastTo_1b_ab_apply, KeepdimsLayout.broadcastTo_a1_ab_apply, mulf_apply]
  rw [show (FloatOps.ofBits FTy.f32 0#32 : Ideal .f32) = 0 from Ideal.ofBits_zero_f32]

variable (V : (c : Dev nD) → (b : Ref sig .tc) → Buf (Elt Ideal) ((c : Thread nD τ).loc b))

/-- The zero offsets of a whole-buffer access, as a constant function. -/
theorem zero_offsets : (![0, 0] : Fin 2 → Nat) = fun _ => 0 := funext fun a => by fin_cases a <;> rfl

/-- The block index maps over the ten points: the three node-indexed inputs and the output are at block (t, 0),
    the bias row is always at block (0, 0). -/
theorem block_indices : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- Every one of the ten row blocks is some point's. -/
theorem block_onto : ∀ q : Fin 10, ∃ t : Fin cfg1.N, win1_4.index t = ![q.val, 0] :=
  (by decide +kernel : ∀ q : Fin 10, ∃ t : Fin grid1.N, win1_4.index t = ![q.val, 0])

/-- A point is one of ten. -/
theorem point_lt (t : Fin cfg1.N) : t.val < 10 := by
  have := t.isLt
  have e : cfg1.N = 10 := N_1
  omega

/-- Row p of block t is row 5000 t + p of the array. -/
def row (t : Fin cfg1.N) (p : Fin 5000) : Fin 50000 := ⟨t.val * 5000 + p.val, by have := point_lt t; have := p.isLt; omega⟩

/-- Where the output block's entry (p, h) sits in the output array. -/
theorem emb_out (t : Fin cfg1.N) (p : Fin 5000) (h : Fin 128) :
    ((cfg1.win 4).blk t).view.emb (ix2 p h) = ix2 (row t p) h := by
  obtain ⟨e0, e1, -⟩ := block_indices t
  funext a; apply Fin.ext
  match a with
  | ⟨0, _⟩ => show win1_4.index t (0 : Fin 2) * 5000 + 1 * p.val = t.val * 5000 + p.val; omega
  | ⟨1, _⟩ => show win1_4.index t (1 : Fin 2) * 128 + 1 * h.val = h.val; omega

/-- Where the aggregate block's entry (p, h) sits in its array. -/
theorem emb_agg (t : Fin cfg1.N) (p : Fin 5000) (h : Fin 128) :
    ((cfg1.win 0).blk t).view.emb (ix2 p h) = ix2 (row t p) h := by
  obtain ⟨-, -, e0, e1, -⟩ := block_indices t
  funext a; apply Fin.ext
  match a with
  | ⟨0, _⟩ => show win1_0.index t (0 : Fin 2) * 5000 + 1 * p.val = t.val * 5000 + p.val; omega
  | ⟨1, _⟩ => show win1_0.index t (1 : Fin 2) * 128 + 1 * h.val = h.val; omega

/-- Where the feature block's entry (p, h) sits in its array. -/
theorem emb_hw (t : Fin cfg1.N) (p : Fin 5000) (h : Fin 128) :
    ((cfg1.win 1).blk t).view.emb (ix2 p h) = ix2 (row t p) h := by
  obtain ⟨-, -, -, -, e0, e1, -⟩ := block_indices t
  funext a; apply Fin.ext
  match a with
  | ⟨0, _⟩ => show win1_1.index t (0 : Fin 2) * 5000 + 1 * p.val = t.val * 5000 + p.val; omega
  | ⟨1, _⟩ => show win1_1.index t (1 : Fin 2) * 128 + 1 * h.val = h.val; omega

/-- Where the column block's entry (p, 0) sits in the column. -/
theorem emb_col (t : Fin cfg1.N) (p : Fin 5000) :
    ((cfg1.win 2).blk t).view.emb (ix2 p (0 : Fin 1)) = ix2 (row t p) (0 : Fin 1) := by
  obtain ⟨-, -, -, -, -, -, e0, e1, -⟩ := block_indices t
  funext a; apply Fin.ext
  match a with
  | ⟨0, _⟩ => show win1_2.index t (0 : Fin 2) * 5000 + 1 * p.val = t.val * 5000 + p.val; omega
  | ⟨1, _⟩ => show win1_2.index t (1 : Fin 2) * 1 + 1 * 0 = 0; omega

/-- The bias row's one block is the row itself. -/
theorem emb_bias (t : Fin cfg1.N) (h : Fin 128) :
    ((cfg1.win 3).blk t).view.emb (ix2 (0 : Fin 1) h) = ix2 (0 : Fin 1) h := by
  obtain ⟨-, -, -, -, -, -, -, -, e0, e1⟩ := block_indices t
  funext a; apply Fin.ext
  match a with
  | ⟨0, _⟩ => show win1_3.index t (0 : Fin 2) * 1 + 1 * 0 = 0; omega
  | ⟨1, _⟩ => show win1_3.index t (1 : Fin 2) * 128 + 1 * h.val = h.val; omega

/-- The aggregate block of point t at (p, h) is the aggregate array at row 5000 t + p. -/
theorem agg_block (c : Dev nD) (t : Fin cfg1.N) (p : Fin 5000) (h : Fin 128) :
    (iblk1 V c 0 t : Vec Ideal S5000x128 .f32) (ix2 p h) = V c main_v40 (ix2 (row t p) h) := by
  show V c main_v40 (((cfg1.win 0).blk t).view.emb (ix2 p h)) = _
  rw [emb_agg]

/-- The feature block of point t at (p, h) is the feature array at row 5000 t + p. -/
theorem hw_block (c : Dev nD) (t : Fin cfg1.N) (p : Fin 5000) (h : Fin 128) :
    (iblk1 V c 1 t : Vec Ideal S5000x128 .f32) (ix2 p h) = V c main_v12 (ix2 (row t p) h) := by
  show V c main_v12 (((cfg1.win 1).blk t).view.emb (ix2 p h)) = _
  rw [emb_hw]

/-- The column block of point t at (p, 0) is the column at row 5000 t + p. -/
theorem col_block (c : Dev nD) (t : Fin cfg1.N) (p : Fin 5000) :
    (iblk1 V c 2 t : Vec Ideal S5000x1 .f32) (ix2 p (0 : Fin 1)) = V c main_v11 (ix2 (row t p) (0 : Fin 1)) := by
  show V c main_v11 (((cfg1.win 2).blk t).view.emb (ix2 p (0 : Fin 1))) = _
  rw [emb_col]

/-- The bias block of every point is the bias row. -/
theorem bias_block (c : Dev nD) (t : Fin cfg1.N) (h : Fin 128) :
    (iblk1 V c 3 t : Vec Ideal S1x128 .f32) (ix2 (0 : Fin 1) h) = V c main_v41 (ix2 (0 : Fin 1) h) := by
  show V c main_v41 (((cfg1.win 3).blk t).view.emb (ix2 (0 : Fin 1) h)) = _
  rw [emb_bias]

/-- What point t writes back is block t of the layer's last step of the four entry arrays. -/
theorem flushed_eq (c : Dev nD) (t : Fin cfg1.N) :
    (dat1 (F := Ideal) V c).flushed 4 t
      = ((cfg1.win 4).blk t).view.read (Elt Ideal)
          (Cert.Gcn.combine (V c main_v40) (V c main_v12) (V c main_v11) (V c main_v41)) := by
  show (cfg1.win 4).cut (grid1.coords t) ((dat1 V c).after 4 t) = _
  rw [after1_4]
  unfold out1_4
  rw [View.canon_unit_zero zero_offsets]
  simp only [View.ld_unit_zero (S := S5000x1) zero_offsets, View.ld_unit_zero (S := S5000x128) zero_offsets,
    View.ld_unit_zero (S := S1x128) zero_offsets]
  funext j
  obtain ⟨p, h, rfl⟩ : ∃ (p : Fin 5000) (h : Fin 128), j = ix2 p h := ⟨j 0, j 1, eq_ix2 j⟩
  show k1_pay1 (iblk1 V c 2 t) (iblk1 V c 1 t) (iblk1 V c 0 t) (iblk1 V c 3 t) (ix2 p h)
    = Cert.Gcn.combine (V c main_v40) (V c main_v12) (V c main_v11) (V c main_v41)
        (((cfg1.win 4).blk t).view.emb (ix2 p h))
  rw [emb_out t p h, Cert.Gcn.combine_apply]
  refine (pay_apply _ _ _ _ p h).trans ?_
  rw [agg_block, hw_block, col_block, bias_block]

/-- An index of the output array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v42).slice (win1_4.rect t)).set ↔ _
  rw [View.set_slice_whole, Rect.mem_set_unit]
  exact Iff.rfl

/-- The ten blocks cover the output array: row r lies in block r / 5000, and every channel in every block. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := block_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- After the ten blocks of 5000 nodes have been written back, the output array is the layer's last step of the four arrays the region was entered with. -/
theorem array (c : Dev nD) :
    (dat1 (F := Ideal) V c).arrAt 4 cfg1.N = Cert.Gcn.combine (V c main_v40) (V c main_v12) (V c main_v11) (V c main_v41) :=
  (dat1 (F := Ideal) V c).arrAt_eq_of_cover 4 _ (fun t _ => flushed_eq V c t) cover

end Cert.Gcn.Region1

end
-- ==== Proof.Region2.lean ====
/-
  The second product region, block by block.

  The region computes H · W for the first layer's output H : [50000, 128] and the second layer's weights
  W : [128, 128] in ten blocks of 5000 rows. At block t it reads rows 5000 t … 5000 t + 4999 of H and all of W,
  recasts the block of H to its own shape (the identity), narrows both to bf16 (the identity over the extended reals),
  multiplies them into a zero accumulator, and writes the [5000, 128] result to rows 5000 t … 5000 t + 4999 of the
  output. Entry (p, h) of that block is Σₖ H (5000 t + p, k) · W (k, h), which is entry (5000 t + p, h) of the matrix
  product; row r of the output lies in block r / 5000, so the ten blocks fill the array and after the ten write-backs
  the array is the matrix product.
-/
import proofs.«146762_j77584289235224_1_alg».proof.Proof.Gen.KernelIdeal.Frame
import proofs.«146762_j77584289235224_1_alg».proof.Proof.Spec
import proofs.«146762_j77584289235224_1_alg».proof.Proof.LibMatmul2
import proofs.«146762_j77584289235224_1_alg».proof.Proof.LibDotAxes
import Idealize.ShloMosaic.Lib.Pipeline.Value

set_option maxRecDepth 16384

noncomputable section

namespace Cert.Gcn.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## One block's product at an index -/

/-- The offsets (0, 0) of the rectangle through which the body reads and writes its whole buffers. -/
theorem zero_offsets : (![0, 0] : Fin 2 → Nat) = fun _ => 0 := funext fun a => by fin_cases a <;> rfl

/-- The body's result at (p, h): a block of 5000 rows times the weights, into a zero accumulator, is
    Σₖ x0 (p, k) · x1 (k, h); recasting the block to its own shape is the identity, and narrowing to bf16 changes
    nothing over the extended reals. -/
theorem block_product_apply (x0 : Vec Ideal S5000x128 .f32) (x1 : Vec Ideal S128x128 .f32) (p : Fin 5000) (h : Fin 128) :
    k2_pay1 (F := Ideal) x0 x1 (ix2 p h) = ∑ k : Fin 128, x0 (ix2 p k) * x1 (ix2 k h) := by
  unfold k2_pay1
  rw [shapeCast_self]
  have hr := Cert.LibDotAxes.contr_rank (M := 5000) (K := 128) (N := 128) dot_S5000x128_S128x128_S5000x128_1_0_0_1_n_n rfl
  exact Cert.LibMatmul2.matmul_zero_apply (M := 5000) (K := 128) (N := 128)
    dot_S5000x128_S128x128_S5000x128_1_0_0_1_n_n hr
    (Cert.LibDotAxes.contr_size _ rfl _)
    (Cert.LibDotAxes.lhs_row _ rfl rfl)
    (fun i q => Cert.LibDotAxes.lhs_col _ rfl i q _)
    (fun i q => Cert.LibDotAxes.rhs_row _ rfl i q _)
    (Cert.LibDotAxes.rhs_col _ rfl rfl rfl rfl)
    (truncf .bf16 x0 bitsLt_bf16_f32) (truncf .bf16 x1 bitsLt_bf16_f32) p h

/-! ## Where the blocks sit -/

/-- The block indices over the ten grid points: the window on H and the output window are at block (t, 0), the
    weight window always at block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- There are ten grid points. -/
theorem point_lt (t : Fin cfg2.N) : t.val < 10 := lt_of_lt_of_eq t.isLt N_2

/-- Row p of block t is row 5000 t + p of the array. -/
theorem row_lt (t : Fin cfg2.N) (p : Fin 5000) : t.val * 5000 + p.val < 50000 := by
  have := point_lt t; have := p.isLt; omega

/-- The block of H at point t, at (p, k), is H (5000 t + p, k). -/
theorem hidden_block_apply (c : Dev nD) (t : Fin cfg2.N) (p : Fin 5000) (k : Fin 128) :
    iblk2 V c 0 t (ix2 p k) = V c main_v42 (ix2 (n0 := 50000) (n1 := 128) ⟨t.val * 5000 + p.val, row_lt t p⟩ k) := by
  show V c main_v42 (((cfg2.win 0).blk t).view.emb (ix2 p k)) = _
  refine congrArg (V c main_v42) ?_
  obtain ⟨e0, e1, -⟩ := block_indices t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

/-- The weight block at every point, at (k, h), is W (k, h). -/
theorem weights_block_apply (c : Dev nD) (t : Fin cfg2.N) (k : Fin 128) (h : Fin 128) :
    iblk2 V c 1 t (ix2 k h) = V c main_arg5 (ix2 (n0 := 128) (n1 := 128) k h) := by
  show V c main_arg5 (((cfg2.win 1).blk t).view.emb (ix2 k h)) = _
  refine congrArg (V c main_arg5) ?_
  obtain ⟨-, -, e2, e3, -⟩ := block_indices t
  funext a; apply Fin.ext
  match a with
  | ⟨0, _⟩ => show win2_1.index t (0 : Fin 2) * 128 + 1 * k.val = k.val; omega
  | ⟨1, _⟩ => show win2_1.index t (1 : Fin 2) * 128 + 1 * h.val = h.val; omega

/-- Entry (p, h) of the output block at point t is entry (5000 t + p, h) of the array. -/
theorem output_block_emb (t : Fin cfg2.N) (p : Fin 5000) (h : Fin 128) :
    ((cfg2.win 2).blk t).view.emb (ix2 p h) = ix2 (n0 := 50000) (n1 := 128) ⟨t.val * 5000 + p.val, row_lt t p⟩ h := by
  obtain ⟨-, -, -, -, e4, e5⟩ := block_indices t
  funext a; apply Fin.ext
  match a with
  | ⟨0, _⟩ => show win2_2.index t (0 : Fin 2) * 5000 + 1 * p.val = t.val * 5000 + p.val; omega
  | ⟨1, _⟩ => show win2_2.index t (1 : Fin 2) * 128 + 1 * h.val = h.val; omega

/-! ## What each point writes back -/

/-- What point t writes back is block t of the matrix product of the two arrays the region was entered with. -/
theorem flushed_eq (c : Dev nD) (t : Fin cfg2.N) :
    (dat2 (F := Ideal) V c).flushed 2 t
      = ((cfg2.win 2).blk t).view.read (Elt Ideal) (Cert.Gcn.mm (V c main_v42) (V c main_arg5)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  funext j
  obtain ⟨p, h, rfl⟩ : ∃ (p : Fin 5000) (h : Fin 128), j = ix2 p h := ⟨j 0, j 1, eq_ix2 j⟩
  show k2_pay1 (iblk2 V c 0 t) (iblk2 V c 1 t) (ix2 p h)
    = Cert.Gcn.mm (V c main_v42) (V c main_arg5) (((cfg2.win 2).blk t).view.emb (ix2 p h))
  rw [block_product_apply, output_block_emb, Cert.Gcn.mm_apply]
  refine Finset.sum_congr rfl fun k _ => ?_
  rw [hidden_block_apply, weights_block_apply]

/-! ## The blocks fill the array -/

/-- An index of the array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v43).slice (win2_2.rect t)).set ↔ _
  rw [View.set_slice_whole, Rect.mem_set_unit]
  exact Iff.rfl

/-- Row r lies in block r / 5000, and that point writes its block back. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega) N_2.symm⟩, rfl⟩
  obtain ⟨-, -, -, -, e4, e5⟩ := block_indices t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-! ## The array -/

/-- After the ten blocks of 5000 nodes have been written back, the output array is the matrix product of the two arrays the region was entered with. -/
theorem array (c : Dev nD) :
    (dat2 (F := Ideal) V c).arrAt 2 cfg2.N = Cert.Gcn.mm (V c main_v42) (V c main_arg5) := by
  exact (dat2 (F := Ideal) V c).arrAt_eq_of_cover 2 (Cert.Gcn.mm (V c main_v42) (V c main_arg5))
    (fun t _ => flushed_eq V c t) covered

end Cert.Gcn.Region2

end
-- ==== Proof.Region3.lean ====
import proofs.«146762_j77584289235224_1_alg».proof.Proof.Gen.KernelIdeal.Frame
import proofs.«146762_j77584289235224_1_alg».proof.Proof.Spec
import proofs.«146762_j77584289235224_1_alg».proof.Proof.LibKeepdims
import Idealize.ShloMosaic.Lib.ValueLayout
import Idealize.ShloMosaic.PureOps.Ideal.Laws

set_option maxRecDepth 16384

noncomputable section

namespace Cert.Gcn.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The block the body stores, at row p and channel h: the aggregate entry, plus the squared column entry of row p
    times the feature entry, plus the bias at channel h, clamped at zero. The shape casts are identities, the column
    is read at (p, 0) and the bias row at (0, h). -/
theorem pay_apply (v0 : Vec Ideal S5000x1 .f32) (v3 v7 : Vec Ideal S5000x128 .f32) (v10 : Vec Ideal S1x128 .f32)
    (p : Fin 5000) (h : Fin 128) :
    k3_pay1 (F := Ideal) v0 v3 v7 v10 (ix2 p h)
      = max ((v7 (ix2 p h) + (v0 (ix2 p 0) * v0 (ix2 p 0)) * v3 (ix2 p h)) + v10 (ix2 0 h)) 0 := by
  unfold k3_pay1
  simp only [shapeCast_self]
  rw [maximumf_apply, broadcast_apply, addf_apply, addf_apply, mulf_apply,
    broadcastTo_1b_ab_apply, KeepdimsLayout.broadcastTo_a1_ab_apply, mulf_apply]
  rw [show (FloatOps.ofBits FTy.f32 0#32 : Ideal .f32) = 0 from Ideal.ofBits_zero_f32]

variable (V : (c : Dev nD) → (b : Ref sig .tc) → Buf (Elt Ideal) ((c : Thread nD τ).loc b))

/-- The zero offsets of a whole-buffer access, as a constant function. -/
theorem zero_offsets : (![0, 0] : Fin 2 → Nat) = fun _ => 0 := funext fun a => by fin_cases a <;> rfl

/-- The block index maps over the ten points: the three node-indexed inputs and the output are at block (t, 0),
    the bias row is always at block (0, 0). -/
theorem block_indices : ∀ t : Fin cfg3.N,
    win3_4.index t (0 : Fin 2) = t.val ∧ win3_4.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0 :=
  (by decide +kernel : ∀ t : Fin grid3.N, _)

/-- Every one of the ten row blocks is some point's. -/
theorem block_onto : ∀ q : Fin 10, ∃ t : Fin cfg3.N, win3_4.index t = ![q.val, 0] :=
  (by decide +kernel : ∀ q : Fin 10, ∃ t : Fin grid3.N, win3_4.index t = ![q.val, 0])

/-- A point is one of ten. -/
theorem point_lt (t : Fin cfg3.N) : t.val < 10 := by
  have := t.isLt
  have e : cfg3.N = 10 := N_3
  omega

/-- Row p of block t is row 5000 t + p of the array. -/
def row (t : Fin cfg3.N) (p : Fin 5000) : Fin 50000 := ⟨t.val * 5000 + p.val, by have := point_lt t; have := p.isLt; omega⟩

/-- Where the output block's entry (p, h) sits in the output array. -/
theorem emb_out (t : Fin cfg3.N) (p : Fin 5000) (h : Fin 128) :
    ((cfg3.win 4).blk t).view.emb (ix2 p h) = ix2 (row t p) h := by
  obtain ⟨e0, e1, -⟩ := block_indices t
  funext a; apply Fin.ext
  match a with
  | ⟨0, _⟩ => show win3_4.index t (0 : Fin 2) * 5000 + 1 * p.val = t.val * 5000 + p.val; omega
  | ⟨1, _⟩ => show win3_4.index t (1 : Fin 2) * 128 + 1 * h.val = h.val; omega

/-- Where the aggregate block's entry (p, h) sits in its array. -/
theorem emb_agg (t : Fin cfg3.N) (p : Fin 5000) (h : Fin 128) :
    ((cfg3.win 0).blk t).view.emb (ix2 p h) = ix2 (row t p) h := by
  obtain ⟨-, -, e0, e1, -⟩ := block_indices t
  funext a; apply Fin.ext
  match a with
  | ⟨0, _⟩ => show win3_0.index t (0 : Fin 2) * 5000 + 1 * p.val = t.val * 5000 + p.val; omega
  | ⟨1, _⟩ => show win3_0.index t (1 : Fin 2) * 128 + 1 * h.val = h.val; omega

/-- Where the feature block's entry (p, h) sits in its array. -/
theorem emb_hw (t : Fin cfg3.N) (p : Fin 5000) (h : Fin 128) :
    ((cfg3.win 1).blk t).view.emb (ix2 p h) = ix2 (row t p) h := by
  obtain ⟨-, -, -, -, e0, e1, -⟩ := block_indices t
  funext a; apply Fin.ext
  match a with
  | ⟨0, _⟩ => show win3_1.index t (0 : Fin 2) * 5000 + 1 * p.val = t.val * 5000 + p.val; omega
  | ⟨1, _⟩ => show win3_1.index t (1 : Fin 2) * 128 + 1 * h.val = h.val; omega

/-- Where the column block's entry (p, 0) sits in the column. -/
theorem emb_col (t : Fin cfg3.N) (p : Fin 5000) :
    ((cfg3.win 2).blk t).view.emb (ix2 p (0 : Fin 1)) = ix2 (row t p) (0 : Fin 1) := by
  obtain ⟨-, -, -, -, -, -, e0, e1, -⟩ := block_indices t
  funext a; apply Fin.ext
  match a with
  | ⟨0, _⟩ => show win3_2.index t (0 : Fin 2) * 5000 + 1 * p.val = t.val * 5000 + p.val; omega
  | ⟨1, _⟩ => show win3_2.index t (1 : Fin 2) * 1 + 1 * 0 = 0; omega

/-- The bias row's one block is the row itself. -/
theorem emb_bias (t : Fin cfg3.N) (h : Fin 128) :
    ((cfg3.win 3).blk t).view.emb (ix2 (0 : Fin 1) h) = ix2 (0 : Fin 1) h := by
  obtain ⟨-, -, -, -, -, -, -, -, e0, e1⟩ := block_indices t
  funext a; apply Fin.ext
  match a with
  | ⟨0, _⟩ => show win3_3.index t (0 : Fin 2) * 1 + 1 * 0 = 0; omega
  | ⟨1, _⟩ => show win3_3.index t (1 : Fin 2) * 128 + 1 * h.val = h.val; omega

/-- The aggregate block of point t at (p, h) is the aggregate array at row 5000 t + p. -/
theorem agg_block (c : Dev nD) (t : Fin cfg3.N) (p : Fin 5000) (h : Fin 128) :
    (iblk3 V c 0 t : Vec Ideal S5000x128 .f32) (ix2 p h) = V c main_v71 (ix2 (row t p) h) := by
  show V c main_v71 (((cfg3.win 0).blk t).view.emb (ix2 p h)) = _
  rw [emb_agg]

/-- The feature block of point t at (p, h) is the feature array at row 5000 t + p. -/
theorem hw_block (c : Dev nD) (t : Fin cfg3.N) (p : Fin 5000) (h : Fin 128) :
    (iblk3 V c 1 t : Vec Ideal S5000x128 .f32) (ix2 p h) = V c main_v43 (ix2 (row t p) h) := by
  show V c main_v43 (((cfg3.win 1).blk t).view.emb (ix2 p h)) = _
  rw [emb_hw]

/-- The column block of point t at (p, 0) is the column at row 5000 t + p. -/
theorem col_block (c : Dev nD) (t : Fin cfg3.N) (p : Fin 5000) :
    (iblk3 V c 2 t : Vec Ideal S5000x1 .f32) (ix2 p (0 : Fin 1)) = V c main_v11 (ix2 (row t p) (0 : Fin 1)) := by
  show V c main_v11 (((cfg3.win 2).blk t).view.emb (ix2 p (0 : Fin 1))) = _
  rw [emb_col]

/-- The bias block of every point is the bias row. -/
theorem bias_block (c : Dev nD) (t : Fin cfg3.N) (h : Fin 128) :
    (iblk3 V c 3 t : Vec Ideal S1x128 .f32) (ix2 (0 : Fin 1) h) = V c main_v72 (ix2 (0 : Fin 1) h) := by
  show V c main_v72 (((cfg3.win 3).blk t).view.emb (ix2 (0 : Fin 1) h)) = _
  rw [emb_bias]

/-- What point t writes back is block t of the layer's last step of the four entry arrays. -/
theorem flushed_eq (c : Dev nD) (t : Fin cfg3.N) :
    (dat3 (F := Ideal) V c).flushed 4 t
      = ((cfg3.win 4).blk t).view.read (Elt Ideal)
          (Cert.Gcn.combine (V c main_v71) (V c main_v43) (V c main_v11) (V c main_v72)) := by
  show (cfg3.win 4).cut (grid3.coords t) ((dat3 V c).after 4 t) = _
  rw [after3_4]
  unfold out3_4
  rw [View.canon_unit_zero zero_offsets]
  simp only [View.ld_unit_zero (S := S5000x1) zero_offsets, View.ld_unit_zero (S := S5000x128) zero_offsets,
    View.ld_unit_zero (S := S1x128) zero_offsets]
  funext j
  obtain ⟨p, h, rfl⟩ : ∃ (p : Fin 5000) (h : Fin 128), j = ix2 p h := ⟨j 0, j 1, eq_ix2 j⟩
  show k3_pay1 (iblk3 V c 2 t) (iblk3 V c 1 t) (iblk3 V c 0 t) (iblk3 V c 3 t) (ix2 p h)
    = Cert.Gcn.combine (V c main_v71) (V c main_v43) (V c main_v11) (V c main_v72)
        (((cfg3.win 4).blk t).view.emb (ix2 p h))
  rw [emb_out t p h, Cert.Gcn.combine_apply]
  refine (pay_apply _ _ _ _ p h).trans ?_
  rw [agg_block, hw_block, col_block, bias_block]

/-- An index of the output array is in point t's block iff each coordinate is in the block's range on its axis. -/
theorem mem_blk (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v73).slice (win3_4.rect t)).set ↔ _
  rw [View.set_slice_whole, Rect.mem_set_unit]
  exact Iff.rfl

/-- The ten blocks cover the output array: row r lies in block r / 5000, and every channel in every block. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := block_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

/-- After the ten blocks of 5000 nodes have been written back, the output array is the layer's last step of the four arrays the region was entered with. -/
theorem array (c : Dev nD) :
    (dat3 (F := Ideal) V c).arrAt 4 cfg3.N = Cert.Gcn.combine (V c main_v71) (V c main_v43) (V c main_v11) (V c main_v72) :=
  (dat3 (F := Ideal) V c).arrAt_eq_of_cover 4 _ (fun t _ => flushed_eq V c t) cover

end Cert.Gcn.Region3

end
-- ==== Proof.LibRowMatrix.lean ====
/-
  A vector laid out as a one-row matrix, two ways.

  The kernel's program reshapes each bias vector of length n to a [1, n] matrix; the reference broadcasts it
  along a new leading axis of extent one. Both matrices hold the vector's entry j at (0, j).
-/
import Idealize.ShloMosaic.Lib.Pipeline.Value

namespace Cert.LibRowMatrix

open Idealize.ShloMosaic

/-- For n other than one, the reshape of a length-n vector to [1, n] is its broadcast along a new leading unit axis. -/
theorem shapeCast_eq_broadcastInDim {n : Nat} {α : Type} (hn : n ≠ 1) (x : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x hc = broadcastInDim ⟨2, ![1, n]⟩ (![1] : Fin 1 → Fin 2) hb x := by
  funext j
  have h0 : (j 0).val = 0 := by have h : (j 0).val < 1 := (j 0).isLt; omega
  let k : (⟨1, ![n]⟩ : Shape).Idx := fun a => match a with
    | ⟨0, _⟩ => ⟨(j 1).val, (j 1).isLt⟩
  rw [shapeCast_apply x hc j k (by
        rw [Shape.rowMajor_val_one, Shape.rowMajor_val_two]
        show (j 1).val = (j 0).val * n + (j 1).val
        rw [h0]; omega),
      broadcastInDim_apply (![1] : Fin 1 → Fin 2) hb x j k (fun a => match a with
        | ⟨0, _⟩ => by
          show (j 1).val = if n = 1 then 0 else (j 1).val
          rw [if_neg hn])]

end Cert.LibRowMatrix
-- ==== Proof.RefBridge.lean ====
/-
  The reference's stages, read as the two functions of Proof/Spec.lean.

  A host product of node features and weights is the matrix product index by index. A layer's output stage — the
  aggregated neighbours plus the product scaled by the squared inverse root degree, plus the bias, clamped at zero — is the
  layer's last step of those arrays with the inverse root degrees laid out as a column and the bias as a row: the column
  read at (p, 0) is the vector at p, and a length-128 vector reshaped to one row is the same row as the vector broadcast
  along a new leading axis.
-/
import proofs.«146762_j77584289235224_1_alg».proof.Proof.Gen.ReferenceIdeal.Read
import proofs.«146762_j77584289235224_1_alg».proof.Proof.Spec
import proofs.«146762_j77584289235224_1_alg».proof.Proof.LibKeepdims
import proofs.«146762_j77584289235224_1_alg».proof.Proof.LibRowMatrix

set_option maxRecDepth 16384

noncomputable section

namespace Cert.Gcn.Ref

open Cert.ReferenceIdeal Cert.ReferenceIdeal.Gen Cert.ReferenceIdeal.Read
open Idealize.ShloMosaic Idealize.ShloMosaic.ValueIdx

variable (x0 : (⟨S50000x128, .f32⟩ : BufTy).Contents (Elt Ideal)) (x1 : (⟨S2x800000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))

/-- The left operand of a product read at (p, h) and contraction index k is entry (p, k). -/
theorem lidx11 (p : Fin 50000) (h k : Fin 128) : lidx_main_v11 (ix2 p h) k = ix2 p k :=
  funext fun a => Fin.ext (by match a with | ⟨0, _⟩ => rfl | ⟨1, _⟩ => rfl)
/-- The right operand's is entry (k, h). -/
theorem ridx11 (p : Fin 50000) (h k : Fin 128) : ridx_main_v11 (ix2 p h) k = ix2 k h :=
  funext fun a => Fin.ext (by match a with | ⟨0, _⟩ => rfl | ⟨1, _⟩ => rfl)
theorem lidx49 (p : Fin 50000) (h k : Fin 128) : lidx_main_v49 (ix2 p h) k = ix2 p k :=
  funext fun a => Fin.ext (by match a with | ⟨0, _⟩ => rfl | ⟨1, _⟩ => rfl)
theorem ridx49 (p : Fin 50000) (h k : Fin 128) : ridx_main_v49 (ix2 p h) k = ix2 k h :=
  funext fun a => Fin.ext (by match a with | ⟨0, _⟩ => rfl | ⟨1, _⟩ => rfl)

/-- The first layer's product of features and weights is the matrix product. -/
theorem v11_eq : val_main_v11 (F := Ideal) x0 x3 = Cert.Gcn.mm x0 x3 := by
  funext i
  obtain ⟨p, h, rfl⟩ : ∃ (p : Fin 50000) (h : Fin 128), i = ix2 p h := ⟨i 0, i 1, eq_ix2 i⟩
  rw [val_main_v11_apply, Cert.Gcn.mm_apply]
  exact Finset.sum_congr rfl fun k _ => by rw [lidx11, ridx11]

/-- The second layer's product likewise, of the first layer's output. -/
theorem v49_eq : val_main_v49 (F := Ideal) x0 x1 x3 x4 x5 = Cert.Gcn.mm (val_main_v48 (F := Ideal) x0 x1 x3 x4) x5 := by
  funext i
  obtain ⟨p, h, rfl⟩ : ∃ (p : Fin 50000) (h : Fin 128), i = ix2 p h := ⟨i 0, i 1, eq_ix2 i⟩
  rw [val_main_v49_apply, Cert.Gcn.mm_apply]
  exact Finset.sum_congr rfl fun k _ => by rw [lidx49, ridx49]

/-- The inverse root degree that scales row p, read through the two broadcasts. -/
theorem idx_col (p : Fin 50000) (h : Fin 128) : idx_main_v41 (idx_main_v42 (ix2 p h)) = ix1 p :=
  funext fun a => Fin.ext (by match a with | ⟨0, _⟩ => rfl)
theorem idx_col' (p : Fin 50000) (h : Fin 128) : idx_main_v79 (idx_main_v80 (ix2 p h)) = ix1 p :=
  funext fun a => Fin.ext (by match a with | ⟨0, _⟩ => rfl)
/-- The bias entry added in column h, read through the broadcast down the rows. -/
theorem idx_row (p : Fin 50000) (h : Fin 128) : idx_main_v46 (ix2 p h) = ix2 (0 : Fin 1) h :=
  funext fun a => Fin.ext (by match a with | ⟨0, _⟩ => rfl | ⟨1, _⟩ => rfl)
theorem idx_row' (p : Fin 50000) (h : Fin 128) : idx_main_v84 (ix2 p h) = ix2 (0 : Fin 1) h :=
  funext fun a => Fin.ext (by match a with | ⟨0, _⟩ => rfl | ⟨1, _⟩ => rfl)

/-- The first layer's output is the layer's last step of the aggregated neighbours, the product, the inverse root degrees
    as a column and the bias as a row. -/
theorem v48_eq (hc : S50000.ShapeCasts Cert.Gcn.Col) (hr : S128.ShapeCasts Cert.Gcn.Row) :
    val_main_v48 (F := Ideal) x0 x1 x3 x4
      = Cert.Gcn.combine (val_main_v39 (F := Ideal) x0 x1 x3) (val_main_v11 (F := Ideal) x0 x3)
          (shapeCast Cert.Gcn.Col (val_main_v10 (F := Ideal) x1) hc) (shapeCast Cert.Gcn.Row x4 hr) := by
  funext i
  obtain ⟨p, h, rfl⟩ : ∃ (p : Fin 50000) (h : Fin 128), i = ix2 p h := ⟨i 0, i 1, eq_ix2 i⟩
  rw [Cert.Gcn.combine_apply, KeepdimsLayout.shapeCast_a_a1_apply,
    Cert.LibRowMatrix.shapeCast_eq_broadcastInDim (by decide) x4 hr bcast_S128_S1x128_1]
  rw [val_main_v48_apply, val_main_v47_apply, val_main_v44_apply, val_main_v43_apply, val_main_v42_apply,
    val_main_v41_apply, val_main_v40_apply, val_main_v46_apply, val_main_call0_v0_apply, val_main_call0_cst_apply,
    idx_col, idx_row]
  show max _ (Ideal.ofBits .f32 0x00000000#32) = _
  rw [Ideal.ofBits_zero_f32]
  rfl

/-- The second layer's output likewise. -/
theorem v86_eq (hc : S50000.ShapeCasts Cert.Gcn.Col) (hr : S128.ShapeCasts Cert.Gcn.Row) :
    val_main_v86 (F := Ideal) x0 x1 x3 x4 x5 x6
      = Cert.Gcn.combine (val_main_v77 (F := Ideal) x0 x1 x3 x4 x5) (val_main_v49 (F := Ideal) x0 x1 x3 x4 x5)
          (shapeCast Cert.Gcn.Col (val_main_v10 (F := Ideal) x1) hc) (shapeCast Cert.Gcn.Row x6 hr) := by
  funext i
  obtain ⟨p, h, rfl⟩ : ∃ (p : Fin 50000) (h : Fin 128), i = ix2 p h := ⟨i 0, i 1, eq_ix2 i⟩
  rw [Cert.Gcn.combine_apply, KeepdimsLayout.shapeCast_a_a1_apply,
    Cert.LibRowMatrix.shapeCast_eq_broadcastInDim (by decide) x6 hr bcast_S128_S1x128_1]
  rw [val_main_v86_apply, val_main_v85_apply, val_main_v82_apply, val_main_v81_apply, val_main_v80_apply,
    val_main_v79_apply, val_main_v78_apply, val_main_v84_apply, val_main_call1_v0_apply, val_main_call1_cst_apply,
    idx_col', idx_row']
  show max _ (Ideal.ofBits .f32 0x00000000#32) = _
  rw [Ideal.ofBits_zero_f32]
  rfl

end Cert.Gcn.Ref

end
-- ==== Proof.Chain.lean ====
/-
  The program's buffers followed from one boundary to the next. At every boundary each buffer a later step reads is the
  function of the program's arguments that the reference's stage of the same name computes: a stretch of host operations
  shared by the two programs carries equal inputs to equal outputs, a matrix-product region is the reference's product,
  and a region of the layer's last step is the reference's sum, bias and clamp.
-/
import proofs.«146762_j77584289235224_1_alg».proof.Proof.Host0
import proofs.«146762_j77584289235224_1_alg».proof.Proof.Region0
import proofs.«146762_j77584289235224_1_alg».proof.Proof.Region1
import proofs.«146762_j77584289235224_1_alg».proof.Proof.Region2
import proofs.«146762_j77584289235224_1_alg».proof.Proof.Region3
import proofs.«146762_j77584289235224_1_alg».proof.Proof.RefBridge
import Idealize.ShloMosaic.Lib.StableHlo.Run

set_option maxRecDepth 16384

noncomputable section

namespace Cert.Gcn.Host

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## After the first product region -/

theorem W2_v1 (c : Dev nD) : W2 m ρ c (Proc.devRef .tc main_v1) = W1 m ρ c (Proc.devRef .tc main_v1) :=
  W2_of_ne m ρ c main_v1 (by decide)

theorem W2_v3 (c : Dev nD) : W2 m ρ c (Proc.devRef .tc main_v3) = W1 m ρ c (Proc.devRef .tc main_v3) :=
  W2_of_ne m ρ c main_v3 (by decide)

theorem W2_v10 (c : Dev nD) : W2 m ρ c (Proc.devRef .tc main_v10) = W1 m ρ c (Proc.devRef .tc main_v10) :=
  W2_of_ne m ρ c main_v10 (by decide)

theorem W2_v11 (c : Dev nD) : W2 m ρ c (Proc.devRef .tc main_v11) = W1 m ρ c (Proc.devRef .tc main_v11) :=
  W2_of_ne m ρ c main_v11 (by decide)

theorem W2_arg2 (c : Dev nD) : W2 m ρ c (Proc.devRef .tc main_arg2) = W1 m ρ c (Proc.devRef .tc main_arg2) :=
  W2_of_ne m ρ c main_arg2 (by decide)

theorem W2_arg4 (c : Dev nD) : W2 m ρ c (Proc.devRef .tc main_arg4) = W1 m ρ c (Proc.devRef .tc main_arg4) :=
  W2_of_ne m ρ c main_arg4 (by decide)

theorem W2_arg5 (c : Dev nD) : W2 m ρ c (Proc.devRef .tc main_arg5) = W1 m ρ c (Proc.devRef .tc main_arg5) :=
  W2_of_ne m ρ c main_arg5 (by decide)

theorem W2_arg6 (c : Dev nD) : W2 m ρ c (Proc.devRef .tc main_arg6) = W1 m ρ c (Proc.devRef .tc main_arg6) :=
  W2_of_ne m ρ c main_arg6 (by decide)

theorem W2_arg7 (c : Dev nD) : W2 m ρ c (Proc.devRef .tc main_arg7) = W1 m ρ c (Proc.devRef .tc main_arg7) :=
  W2_of_ne m ρ c main_arg7 (by decide)

theorem W2_arg8 (c : Dev nD) : W2 m ρ c (Proc.devRef .tc main_arg8) = W1 m ρ c (Proc.devRef .tc main_arg8) :=
  W2_of_ne m ρ c main_arg8 (by decide)

/-- The first layer's product. -/
theorem W2_v12 (c : Dev nD) : W2 m ρ c (Proc.devRef .tc main_v12)
    = Cert.ReferenceIdeal.Read.val_main_v11 (F := Ideal) (m ((c : Thread nD τ).loc main_arg0)) (m ((c : Thread nD τ).loc main_arg3)) := by
  refine (W2_arr m ρ c 2).trans ((Cert.Gcn.Region0.array (V1 m ρ) c).trans ?_)
  rw [show V1 m ρ c main_arg0 = _ from W1_arg0 m ρ c, show V1 m ρ c main_arg3 = _ from W1_arg3 m ρ c]
  exact (Cert.Gcn.Ref.v11_eq _ _).symm

/-! ## After the first layer's gathers and scatter -/

theorem W3_v1 (c : Dev nD) : W3 m ρ c (Proc.devRef .tc main_v1) = W2 m ρ c (Proc.devRef .tc main_v1) := by
  show StableHlo.after hostOps1 (W2 m ρ c) (Proc.devRef .tc main_v1) = _
  after_results

theorem W3_v3 (c : Dev nD) : W3 m ρ c (Proc.devRef .tc main_v3) = W2 m ρ c (Proc.devRef .tc main_v3) := by
  show StableHlo.after hostOps1 (W2 m ρ c) (Proc.devRef .tc main_v3) = _
  after_results

theorem W3_v10 (c : Dev nD) : W3 m ρ c (Proc.devRef .tc main_v10) = W2 m ρ c (Proc.devRef .tc main_v10) := by
  show StableHlo.after hostOps1 (W2 m ρ c) (Proc.devRef .tc main_v10) = _
  after_results

theorem W3_v11 (c : Dev nD) : W3 m ρ c (Proc.devRef .tc main_v11) = W2 m ρ c (Proc.devRef .tc main_v11) := by
  show StableHlo.after hostOps1 (W2 m ρ c) (Proc.devRef .tc main_v11) = _
  after_results

theorem W3_v12 (c : Dev nD) : W3 m ρ c (Proc.devRef .tc main_v12) = W2 m ρ c (Proc.devRef .tc main_v12) := by
  show StableHlo.after hostOps1 (W2 m ρ c) (Proc.devRef .tc main_v12) = _
  after_results

theorem W3_arg2 (c : Dev nD) : W3 m ρ c (Proc.devRef .tc main_arg2) = W2 m ρ c (Proc.devRef .tc main_arg2) := by
  show StableHlo.after hostOps1 (W2 m ρ c) (Proc.devRef .tc main_arg2) = _
  after_results

theorem W3_arg5 (c : Dev nD) : W3 m ρ c (Proc.devRef .tc main_arg5) = W2 m ρ c (Proc.devRef .tc main_arg5) := by
  show StableHlo.after hostOps1 (W2 m ρ c) (Proc.devRef .tc main_arg5) = _
  after_results

theorem W3_arg6 (c : Dev nD) : W3 m ρ c (Proc.devRef .tc main_arg6) = W2 m ρ c (Proc.devRef .tc main_arg6) := by
  show StableHlo.after hostOps1 (W2 m ρ c) (Proc.devRef .tc main_arg6) = _
  after_results

theorem W3_arg7 (c : Dev nD) : W3 m ρ c (Proc.devRef .tc main_arg7) = W2 m ρ c (Proc.devRef .tc main_arg7) := by
  show StableHlo.after hostOps1 (W2 m ρ c) (Proc.devRef .tc main_arg7) = _
  after_results

theorem W3_arg8 (c : Dev nD) : W3 m ρ c (Proc.devRef .tc main_arg8) = W2 m ρ c (Proc.devRef .tc main_arg8) := by
  show StableHlo.after hostOps1 (W2 m ρ c) (Proc.devRef .tc main_arg8) = _
  after_results

set_option maxHeartbeats 8000000 in
/-- The neighbours' normalised rows summed into each node. -/
theorem W3_v40 (c : Dev nD) : W3 m ρ c (Proc.devRef .tc main_v40)
    = Cert.ReferenceIdeal.Read.val_main_v39 (F := Ideal) (m ((c : Thread nD τ).loc main_arg0)) (m ((c : Thread nD τ).loc main_arg1)) (m ((c : Thread nD τ).loc main_arg3)) := by
  show StableHlo.after hostOps1 (W2 m ρ c) (Proc.devRef .tc main_v40) = _
  after_results_simp
  rw [W2_v1 m ρ c, W2_v3 m ρ c, W2_v10 m ρ c, W2_v12 m ρ c, W1_v1 m ρ c, W1_v3 m ρ c, W1_v10 m ρ c]
  rfl

/-- The first bias as a row. -/
theorem W3_v41 (c : Dev nD) : W3 m ρ c (Proc.devRef .tc main_v41)
    = shapeCast S1x128 (m ((c : Thread nD τ).loc main_arg4)) shapeCasts_S128_S1x128 := by
  show StableHlo.after hostOps1 (W2 m ρ c) (Proc.devRef .tc main_v41) = _
  after_results
  rw [W2_arg4 m ρ c, W1_arg4 m ρ c]
  rfl

/-! ## After the first layer's last step -/

theorem W4_v1 (c : Dev nD) : W4 m ρ c (Proc.devRef .tc main_v1) = W3 m ρ c (Proc.devRef .tc main_v1) :=
  W4_of_ne m ρ c main_v1 (by decide)

theorem W4_v3 (c : Dev nD) : W4 m ρ c (Proc.devRef .tc main_v3) = W3 m ρ c (Proc.devRef .tc main_v3) :=
  W4_of_ne m ρ c main_v3 (by decide)

theorem W4_v10 (c : Dev nD) : W4 m ρ c (Proc.devRef .tc main_v10) = W3 m ρ c (Proc.devRef .tc main_v10) :=
  W4_of_ne m ρ c main_v10 (by decide)

theorem W4_arg2 (c : Dev nD) : W4 m ρ c (Proc.devRef .tc main_arg2) = W3 m ρ c (Proc.devRef .tc main_arg2) :=
  W4_of_ne m ρ c main_arg2 (by decide)

theorem W4_arg5 (c : Dev nD) : W4 m ρ c (Proc.devRef .tc main_arg5) = W3 m ρ c (Proc.devRef .tc main_arg5) :=
  W4_of_ne m ρ c main_arg5 (by decide)

theorem W4_arg6 (c : Dev nD) : W4 m ρ c (Proc.devRef .tc main_arg6) = W3 m ρ c (Proc.devRef .tc main_arg6) :=
  W4_of_ne m ρ c main_arg6 (by decide)

theorem W4_arg7 (c : Dev nD) : W4 m ρ c (Proc.devRef .tc main_arg7) = W3 m ρ c (Proc.devRef .tc main_arg7) :=
  W4_of_ne m ρ c main_arg7 (by decide)

theorem W4_arg8 (c : Dev nD) : W4 m ρ c (Proc.devRef .tc main_arg8) = W3 m ρ c (Proc.devRef .tc main_arg8) :=
  W4_of_ne m ρ c main_arg8 (by decide)

/-- The column of inverse root degrees is read by the region and left as it was. -/
theorem W4_v11 (c : Dev nD) : W4 m ρ c (Proc.devRef .tc main_v11) = W3 m ρ c (Proc.devRef .tc main_v11) :=
  (W4_arr m ρ c 2).trans (((dat1 (V3 m ρ) c).arrAt_in 2 rfl _).trans (A_eq1 (V3 m ρ) c 2))

/-- The first layer's output. -/
theorem W4_v42 (c : Dev nD) : W4 m ρ c (Proc.devRef .tc main_v42)
    = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) := by
  refine (W4_arr m ρ c 4).trans ((Cert.Gcn.Region1.array (V3 m ρ) c).trans ?_)
  rw [show V3 m ρ c main_v40 = _ from W3_v40 m ρ c, show V3 m ρ c main_v12 = _ from (W3_v12 m ρ c).trans (W2_v12 m ρ c),
    show V3 m ρ c main_v11 = _ from ((W3_v11 m ρ c).trans (W2_v11 m ρ c)).trans (W1_v11 m ρ c),
    show V3 m ρ c main_v41 = _ from W3_v41 m ρ c]
  exact (Cert.Gcn.Ref.v48_eq _ _ _ _ _ _).symm

/-! ## After the second product region -/

theorem W5_v1 (c : Dev nD) : W5 m ρ c (Proc.devRef .tc main_v1) = W4 m ρ c (Proc.devRef .tc main_v1) :=
  W5_of_ne m ρ c main_v1 (by decide)

theorem W5_v3 (c : Dev nD) : W5 m ρ c (Proc.devRef .tc main_v3) = W4 m ρ c (Proc.devRef .tc main_v3) :=
  W5_of_ne m ρ c main_v3 (by decide)

theorem W5_v10 (c : Dev nD) : W5 m ρ c (Proc.devRef .tc main_v10) = W4 m ρ c (Proc.devRef .tc main_v10) :=
  W5_of_ne m ρ c main_v10 (by decide)

theorem W5_v11 (c : Dev nD) : W5 m ρ c (Proc.devRef .tc main_v11) = W4 m ρ c (Proc.devRef .tc main_v11) :=
  W5_of_ne m ρ c main_v11 (by decide)

theorem W5_arg2 (c : Dev nD) : W5 m ρ c (Proc.devRef .tc main_arg2) = W4 m ρ c (Proc.devRef .tc main_arg2) :=
  W5_of_ne m ρ c main_arg2 (by decide)

theorem W5_arg6 (c : Dev nD) : W5 m ρ c (Proc.devRef .tc main_arg6) = W4 m ρ c (Proc.devRef .tc main_arg6) :=
  W5_of_ne m ρ c main_arg6 (by decide)

theorem W5_arg7 (c : Dev nD) : W5 m ρ c (Proc.devRef .tc main_arg7) = W4 m ρ c (Proc.devRef .tc main_arg7) :=
  W5_of_ne m ρ c main_arg7 (by decide)

theorem W5_arg8 (c : Dev nD) : W5 m ρ c (Proc.devRef .tc main_arg8) = W4 m ρ c (Proc.devRef .tc main_arg8) :=
  W5_of_ne m ρ c main_arg8 (by decide)

/-- The second layer's product. -/
theorem W5_v43 (c : Dev nD) : W5 m ρ c (Proc.devRef .tc main_v43)
    = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((Cert.Gcn.Region2.array (V4 m ρ) c).trans ?_)
  rw [show V4 m ρ c main_v42 = _ from W4_v42 m ρ c,
    show V4 m ρ c main_arg5 = _ from (((W4_arg5 m ρ c).trans (W3_arg5 m ρ c)).trans (W2_arg5 m ρ c)).trans (W1_arg5 m ρ c)]
  exact (Cert.Gcn.Ref.v49_eq _ _ _ _ _).symm

/-! ## After the second layer's gathers and scatter -/

theorem W6_v11 (c : Dev nD) : W6 m ρ c (Proc.devRef .tc main_v11) = W5 m ρ c (Proc.devRef .tc main_v11) := by
  show StableHlo.after hostOps3 (W5 m ρ c) (Proc.devRef .tc main_v11) = _
  after_results

theorem W6_v43 (c : Dev nD) : W6 m ρ c (Proc.devRef .tc main_v43) = W5 m ρ c (Proc.devRef .tc main_v43) := by
  show StableHlo.after hostOps3 (W5 m ρ c) (Proc.devRef .tc main_v43) = _
  after_results

theorem W6_arg2 (c : Dev nD) : W6 m ρ c (Proc.devRef .tc main_arg2) = W5 m ρ c (Proc.devRef .tc main_arg2) := by
  show StableHlo.after hostOps3 (W5 m ρ c) (Proc.devRef .tc main_arg2) = _
  after_results

theorem W6_arg7 (c : Dev nD) : W6 m ρ c (Proc.devRef .tc main_arg7) = W5 m ρ c (Proc.devRef .tc main_arg7) := by
  show StableHlo.after hostOps3 (W5 m ρ c) (Proc.devRef .tc main_arg7) = _
  after_results

theorem W6_arg8 (c : Dev nD) : W6 m ρ c (Proc.devRef .tc main_arg8) = W5 m ρ c (Proc.devRef .tc main_arg8) := by
  show StableHlo.after hostOps3 (W5 m ρ c) (Proc.devRef .tc main_arg8) = _
  after_results

/-- The edge sources, targets and inverse root degrees as the second layer's host operations find them. -/
theorem W5_v1' (c : Dev nD) : W5 m ρ c (Proc.devRef .tc main_v1) = Cert.ReferenceIdeal.Read.val_main_v1 (F := Ideal) (m ((c : Thread nD τ).loc main_arg1)) :=
  ((((W5_v1 m ρ c).trans (W4_v1 m ρ c)).trans (W3_v1 m ρ c)).trans (W2_v1 m ρ c)).trans (W1_v1 m ρ c)
theorem W5_v3' (c : Dev nD) : W5 m ρ c (Proc.devRef .tc main_v3) = Cert.ReferenceIdeal.Read.val_main_v3 (F := Ideal) (m ((c : Thread nD τ).loc main_arg1)) :=
  ((((W5_v3 m ρ c).trans (W4_v3 m ρ c)).trans (W3_v3 m ρ c)).trans (W2_v3 m ρ c)).trans (W1_v3 m ρ c)
theorem W5_v10' (c : Dev nD) : W5 m ρ c (Proc.devRef .tc main_v10) = Cert.ReferenceIdeal.Read.val_main_v10 (F := Ideal) (m ((c : Thread nD τ).loc main_arg1)) :=
  ((((W5_v10 m ρ c).trans (W4_v10 m ρ c)).trans (W3_v10 m ρ c)).trans (W2_v10 m ρ c)).trans (W1_v10 m ρ c)
theorem W5_arg6' (c : Dev nD) : W5 m ρ c (Proc.devRef .tc main_arg6) = (m ((c : Thread nD τ).loc main_arg6)) :=
  ((((W5_arg6 m ρ c).trans (W4_arg6 m ρ c)).trans (W3_arg6 m ρ c)).trans (W2_arg6 m ρ c)).trans (W1_arg6 m ρ c)

set_option maxHeartbeats 8000000 in
/-- The second layer's neighbours summed into each node. -/
theorem W6_v71 (c : Dev nD) : W6 m ρ c (Proc.devRef .tc main_v71)
    = Cert.ReferenceIdeal.Read.val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v71) = _
  after_results_simp
  rw [W5_v1' m ρ c, W5_v3' m ρ c, W5_v10' m ρ c, W5_v43 m ρ c]
  rfl

/-- The second bias as a row. -/
theorem W6_v72 (c : Dev nD) : W6 m ρ c (Proc.devRef .tc main_v72)
    = shapeCast S1x128 (m ((c : Thread nD τ).loc main_arg6)) shapeCasts_S128_S1x128 := by
  show StableHlo.after hostOps3 (W5 m ρ c) (Proc.devRef .tc main_v72) = _
  after_results
  rw [W5_arg6' m ρ c]
  rfl

/-! ## After the second layer's last step -/

theorem W7_arg2 (c : Dev nD) : W7 m ρ c (Proc.devRef .tc main_arg2) = W6 m ρ c (Proc.devRef .tc main_arg2) :=
  W7_of_ne m ρ c main_arg2 (by decide)

theorem W7_arg7 (c : Dev nD) : W7 m ρ c (Proc.devRef .tc main_arg7) = W6 m ρ c (Proc.devRef .tc main_arg7) :=
  W7_of_ne m ρ c main_arg7 (by decide)

theorem W7_arg8 (c : Dev nD) : W7 m ρ c (Proc.devRef .tc main_arg8) = W6 m ρ c (Proc.devRef .tc main_arg8) :=
  W7_of_ne m ρ c main_arg8 (by decide)

/-- The second layer's output. -/
theorem W7_v73 (c : Dev nD) : W7 m ρ c (Proc.devRef .tc main_v73)
    = Cert.ReferenceIdeal.Read.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 4).trans ((Cert.Gcn.Region3.array (V6 m ρ) c).trans ?_)
  rw [show V6 m ρ c main_v71 = _ from W6_v71 m ρ c, show V6 m ρ c main_v43 = _ from (W6_v43 m ρ c).trans (W5_v43 m ρ c),
    show V6 m ρ c main_v11 = _ from (((((W6_v11 m ρ c).trans (W5_v11 m ρ c)).trans (W4_v11 m ρ c)).trans (W3_v11 m ρ c)).trans (W2_v11 m ρ c)).trans (W1_v11 m ρ c),
    show V6 m ρ c main_v72 = _ from W6_v72 m ρ c]
  exact (Cert.Gcn.Ref.v86_eq _ _ _ _ _ _ _ _).symm

/-! ## The result: the mean of each graph's rows through the last linear layer -/

theorem W7_arg2' (c : Dev nD) : W7 m ρ c (Proc.devRef .tc main_arg2) = (m ((c : Thread nD τ).loc main_arg2)) :=
  ((((((W7_arg2 m ρ c).trans (W6_arg2 m ρ c)).trans (W5_arg2 m ρ c)).trans (W4_arg2 m ρ c)).trans (W3_arg2 m ρ c)).trans (W2_arg2 m ρ c)).trans (W1_arg2 m ρ c)
theorem W7_arg7' (c : Dev nD) : W7 m ρ c (Proc.devRef .tc main_arg7) = (m ((c : Thread nD τ).loc main_arg7)) :=
  ((((((W7_arg7 m ρ c).trans (W6_arg7 m ρ c)).trans (W5_arg7 m ρ c)).trans (W4_arg7 m ρ c)).trans (W3_arg7 m ρ c)).trans (W2_arg7 m ρ c)).trans (W1_arg7 m ρ c)
theorem W7_arg8' (c : Dev nD) : W7 m ρ c (Proc.devRef .tc main_arg8) = (m ((c : Thread nD τ).loc main_arg8)) :=
  ((((((W7_arg8 m ρ c).trans (W6_arg8 m ρ c)).trans (W5_arg8 m ρ c)).trans (W4_arg8 m ρ c)).trans (W3_arg8 m ρ c)).trans (W2_arg8 m ρ c)).trans (W1_arg8 m ρ c)

set_option maxHeartbeats 8000000 in
/-- The program's result is the reference's last stage of the arguments. -/
theorem W8_v89 (c : Dev nD) : W8 m ρ c (Proc.devRef .tc main_v89)
    = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 (W7 m ρ c) (Proc.devRef .tc main_v89) = _
  after_results_simp
  rw [W7_v73 m ρ c, W7_arg2' m ρ c, W7_arg7' m ρ c, W7_arg8' m ρ c]
  rfl

end Cert.Gcn.Host

end
-- ==== Proof.lean ====
/-
  Two graph-convolution layers, a mean over each graph's nodes and a linear layer: the program that computes the two
  matrix products and the two "add the self term and the bias, clamp at zero" steps in blocks of 5000 nodes, against the
  program that computes them on whole arrays.

  Everything else the two programs do — the degree count, the gathers along the edges, the scatter into the target
  nodes, the pooling and the last linear layer — is the same host text in both, so the result is followed buffer by
  buffer: each buffer of the blocked program holds the function of the arguments that the whole-array program's stage of
  the same role computes (Proof/Host0.lean, Proof/Chain.lean). A blocked matrix product is the matrix product
  (Proof/Region0.lean, Proof/Region2.lean against Proof/RefBridge.lean), and the blocked last step is the whole-array one
  index by index (Proof/Region1.lean, Proof/Region3.lean): over the extended reals a change of float format is the
  identity, and both programs add and clamp in the same order, so no law beyond reading the operations at an index is
  used and the inputs' finiteness is never opened. The idealization rewrote nothing, so it is preserved trivially.
-/
import proofs.«146762_j77584289235224_1_alg».proof.Defs
import proofs.«146762_j77584289235224_1_alg».proof.Proof.Gen.Kernel
import proofs.«146762_j77584289235224_1_alg».proof.Proof.Gen.Kernel.Skeleton
import proofs.«146762_j77584289235224_1_alg».proof.Proof.Gen.Kernel.Launch
import proofs.«146762_j77584289235224_1_alg».proof.Proof.Gen.Kernel.Points
import proofs.«146762_j77584289235224_1_alg».proof.Proof.Gen.Kernel.Frame
import proofs.«146762_j77584289235224_1_alg».proof.Proof.Gen.KernelIdeal
import proofs.«146762_j77584289235224_1_alg».proof.Proof.Gen.KernelIdeal.Skeleton
import proofs.«146762_j77584289235224_1_alg».proof.Proof.Gen.KernelIdeal.Launch
import proofs.«146762_j77584289235224_1_alg».proof.Proof.Gen.KernelIdeal.Points
import proofs.«146762_j77584289235224_1_alg».proof.Proof.Gen.KernelIdeal.Frame
import proofs.«146762_j77584289235224_1_alg».proof.Proof.Gen.ReferenceIdeal
import proofs.«146762_j77584289235224_1_alg».proof.Proof.Gen.ReferenceIdeal.Run
import proofs.«146762_j77584289235224_1_alg».proof.Proof.Gen.ReferenceIdeal.Read
import proofs.«146762_j77584289235224_1_alg».proof.Proof.Gen.Pre_finite_inputs
import proofs.«146762_j77584289235224_1_alg».proof.Proof.FrameNamed
import proofs.«146762_j77584289235224_1_alg».proof.Proof.Chain
import Idealize.ShloMosaic.Adequacy
import Idealize.ShloMosaic.Init

noncomputable section

namespace Cert.Proof

open Idealize.ShloMosaic Idealize.SL.Sem

/-- Both programs end with the same result: the blocked program's last buffer holds the whole-array program's last
    stage of the arguments, and the two launch memories agree on the arguments. -/
theorem algebraic : Cert.algebraic_KernelIdeal_ReferenceIdeal := by
  intro m ρ m' ρ' _ hagree
  refine ⟨fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.Gcn.Host.W8_v89 m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v102_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
